-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S50000x128 .f32) (main_arg1 : IVec S2x800000 32) (main_arg2 : FVec F S1x128 .f32) (main_arg3 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S128x1 : Shape := ⟨2, ![128, 1]⟩
abbrev S50000x1 : Shape := ⟨2, ![50000, 1]⟩
abbrev S2000x128 : Shape := ⟨2, ![2000, 128]⟩
abbrev S2000x1 : Shape := ⟨2, ![2000, 1]⟩
abbrev S1x1 : Shape := ⟨2, ![1, 1]⟩

abbrev nBuf : Space → Nat
  | .hbm => 87
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S128x1, .f32⟩
  | .hbm, ⟨52, _⟩ => ⟨S50000x1, .f32⟩
  | .hbm, ⟨53, _⟩ => ⟨S850000x1, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x1, .f32⟩
  | .hbm, ⟨63, _⟩ => ⟨S850000x1, .f32⟩
  | .hbm, ⟨64, _⟩ => ⟨S_, .f32⟩
  | .hbm, ⟨65, _⟩ => ⟨S50000x1, .f32⟩
  | .hbm, ⟨66, _⟩ => ⟨S850000x1, .i32⟩
  | .hbm, ⟨67, _⟩ => ⟨S50000x1, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x1, .f32⟩
  | .hbm, ⟨78, _⟩ => ⟨S850000x1, .f32⟩
  | .hbm, ⟨79, _⟩ => ⟨S_, .f32⟩
  | .hbm, ⟨80, _⟩ => ⟨S50000x1, .f32⟩
  | .hbm, ⟨81, _⟩ => ⟨S850000x1, .i32⟩
  | .hbm, ⟨82, _⟩ => ⟨S50000x1, .f32⟩
  | .hbm, ⟨83, _⟩ => ⟨S1x1, .f32⟩
  | .hbm, ⟨84, _⟩ => ⟨S50000x1, .f32⟩
  | .hbm, ⟨85, _⟩ => ⟨S50000x1, .f32⟩
  | .hbm, ⟨86, _⟩ => ⟨S50000, .f32⟩
  | .local _ .vmem, ⟨0, _⟩ => ⟨S2000x128, .f32⟩
  | .local _ .vmem, ⟨1, _⟩ => ⟨S2000x128, .f32⟩
  | .local _ .vmem, ⟨2, _⟩ => ⟨S128x1, .f32⟩
  | .local _ .vmem, ⟨3, _⟩ => ⟨S2000x1, .f32⟩
  | .local _ .vmem, ⟨4, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_c_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  transposes_S1x128_S128x1_1_0 : S1x128.Transposes [1, 0] S128x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S2000x1_S2000x1_0_0 : ∀ a, (![0, 0] : Fin 2 → Nat) a + S2000x1.size a ≤ S2000x1.size a
  h_S2000x1 : 0 < S2000x1.numel
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x1_S2000x1_1_0_0_1_n_n_wf : DotDims.WF S2000x128 S128x1 S2000x1 [1] [0] [0] [1] [] []
  gather_S50000x1_S850000x1_S850000x1_1_0_n_n_0_1_11_wf : GatherDims.WF S50000x1 S850000x1 S850000x1 [1] [0] [] [0] [] 1 ![1, 1]
  scatter_S50000x1_S850000x1_S850000x1_1_0_0_1_wf : ScatterDims.WF S50000x1 S850000x1 S850000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S128x1.size a
  hwx0_1 : ∀ i : grid0.Coords, EltTy.bits .f32 = 32 ∨ (Rect.block (s := S128x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S50000x1_S850000x1_S850000x1_1_0_n_n_0_1_11 : GatherDims S50000x1 S850000x1 S850000x1 where
  offsetDims := [1]
  collapsedSliceDims := [0]
  operandBatchingDims := []
  startIndicesBatchingDims := []
  startIndexMap := [0]
  indexVectorDim := 1
  sliceSizes := ![1, 1]
  wf := gather_S50000x1_S850000x1_S850000x1_1_0_n_n_0_1_11_wf
def scatter_S50000x1_S850000x1_S850000x1_1_0_0_1 : ScatterDims S50000x1 S850000x1 S850000x1 where
  updateWindowDims := [1]
  insertedWindowDims := [0]
  scatterDimsToOperandDims := [0]
  indexVectorDim := 1
  wf := scatter_S50000x1_S850000x1_S850000x1_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S128x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S2000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S1x128 : Shape := ⟨2, ![1, 128]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S128x1 : Shape := ⟨2, ![128, 1]⟩
abbrev S50000x1 : Shape := ⟨2, ![50000, 1]⟩
abbrev S1x1 : Shape := ⟨2, ![1, 1]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S1x128, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .i32⟩
  | .hbm, ⟨33, _⟩ => ⟨S850000, .i32⟩
  | .hbm, ⟨34, _⟩ => ⟨S850000, .i1⟩
  | .hbm, ⟨35, _⟩ => ⟨S_, .i32⟩
  | .hbm, ⟨36, _⟩ => ⟨S850000, .i32⟩
  | .hbm, ⟨37, _⟩ => ⟨S850000, .i32⟩
  | .hbm, ⟨38, _⟩ => ⟨S850000, .i32⟩
  | .hbm, ⟨39, _⟩ => ⟨S850000x1, .i32⟩
  | .hbm, ⟨40, _⟩ => ⟨S850000, .f32⟩
  | .hbm, ⟨41, _⟩ => ⟨S850000, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000, .f32⟩
  | .hbm, ⟨51, _⟩ => ⟨S850000, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S850000x1, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x128, .f32⟩
  | .hbm, ⟨78, _⟩ => ⟨S850000x128, .f32⟩
  | .hbm, ⟨79, _⟩ => ⟨S850000x128, .f32⟩
  | .hbm, ⟨80, _⟩ => ⟨S_, .f32⟩
  | .hbm, ⟨81, _⟩ => ⟨S50000x128, .f32⟩
  | .hbm, ⟨82, _⟩ => ⟨S850000x1, .i32⟩
  | .hbm, ⟨83, _⟩ => ⟨S50000x128, .f32⟩
  | .hbm, ⟨84, _⟩ => ⟨S128x1, .f32⟩
  | .hbm, ⟨85, _⟩ => ⟨S50000x1, .f32⟩
  | .hbm, ⟨86, _⟩ => ⟨S1x1, .f32⟩
  | .hbm, ⟨87, _⟩ => ⟨S50000x1, .f32⟩
  | .hbm, ⟨88, _⟩ => ⟨S50000x1, .f32⟩
  | .hbm, ⟨89, _⟩ => ⟨S50000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_11 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  transposes_S1x128_S128x1_1_0 : S1x128.Transposes [1, 0] S128x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.KernelProj.lean ====
import proofs.«159129_j91250875171026_1_alg».proof.Proof.Gen.KernelIdeal.Frame
import proofs.«159129_j91250875171026_1_alg».proof.Proof.LibPlainMatmul
import Idealize.ShloMosaic.Lib.Pipeline.Value
import Idealize.ShloMosaic.Lib.ValueIdx
import Idealize.ShloMosaic.PureOps.Ideal.Laws

/-!
# The kernel's region: every node's features projected to one number

The region walks the 50000 nodes in 25 blocks of 2000 rows. At each block the body multiplies the block's rows (2000 × 128)
by the coefficient column (128 × 1) into a zero accumulator; the narrowing of both operands to a shorter float format is the
identity over the extended reals. So the array the region writes holds, at row `r`, the sum over the 128 features `k` of
`x (r, k) · wt (k, 0)`: one whole-array function of the two arrays the region reads.
-/

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The projection of every row of `x` by the coefficient column `wt`. -/
def proj (x : S50000x128.Idx → EReal) (wt : S128x1.Idx → EReal) : S50000x1.Idx → EReal :=
  fun j => ∑ k : Fin 128, x (ix2 (j 0) k) * wt (ix2 k (j 1))

/-- The printed contraction is the plain rows-by-columns one. -/
theorem dot_plain : dot_S2000x128_S128x1_S2000x1_1_0_0_1_n_n = DotDims.plain 2000 128 1 := rfl

/-- What the body stores, at row `p` of the block: that row of the loaded block dotted with the loaded column. -/
theorem pay_apply (x0 : Vec Ideal S2000x128 .f32) (x1 : Vec Ideal S128x1 .f32) (p : Fin 2000) (q : Fin 1) :
    k0_pay1 x0 x1 (ix2 p q) = ∑ k : Fin 128, x0 (ix2 p k) * x1 (ix2 k q) := by
  unfold k0_pay1
  rw [shapeCast_self]
  refine (PlainMatmul.matmul_plain_zero_apply 2000 128 1 none _ _ p q).trans ?_
  rfl

/-- The printed index maps, decided over the 25 points: the node rows move with the point, the coefficient column stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The rows block at point `t` is rows `2000 t … 2000 t + 1999` of the node features. -/
theorem rows_apply (c : Dev nD) (t : Fin cfg0.N) (y : S2000x128.Idx) (i : S50000x128.Idx)
    (h0 : (i 0).val = t.val * 2000 + (y 0).val) (h1 : (i 1).val = (y 1).val) :
    (iblk m c 0 t : Vec Ideal S2000x128 .f32) y = (V m c main_arg0 : S50000x128.Idx → EReal) i := by
  obtain ⟨e0, e1, -, -, -, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

/-- The column block at every point is the whole coefficient column. -/
theorem col_apply (c : Dev nD) (t : Fin cfg0.N) (y : S128x1.Idx) :
    (iblk m c 1 t : Vec Ideal S128x1 .f32) y = (V m c main_v33 : S128x1.Idx → EReal) y := by
  obtain ⟨-, -, e2, e3, -, -⟩ := idx_facts t
  unfold iblk
  rw [View.read_apply]
  show V m c main_v33 _ = V m c main_v33 _
  refine congrArg (V m c main_v33) (funext fun a => Fin.ext ?_)
  match a with
  | ⟨0, _⟩ => show win0_1.index t (0 : Fin 2) * 128 + 1 * (y 0).val = (y 0).val; rw [e2]; omega
  | ⟨1, _⟩ => show win0_1.index t (1 : Fin 2) * 1 + 1 * (y 1).val = (y 1).val; rw [e3]; omega

/-- WHAT POINT `t` WRITES BACK is block `t` of the projected array. -/
theorem flushed_eq (c : Dev nD) (t : Fin cfg0.N) :
    (dats m 0 c).flushed 2 t = ((cfg0.win 2).blk t).view.read (Elt Ideal) (proj (V m c main_arg0) (V m c main_v33)) := by
  show (cfg0.win 2).cut (grid0.coords t) ((dats m 0 c).after 2 t) = _
  rw [after0_2]
  unfold out0_2
  rw [View.canon_unit_zero hz]
  simp only [View.ld_unit_zero (S := S2000x128) hz, View.ld_unit_zero (S := S128x1) hz]
  obtain ⟨-, -, -, -, e4, e5⟩ := idx_facts t
  funext j
  obtain ⟨p, q, rfl⟩ : ∃ (p : Fin 2000) (q : Fin 1), j = ix2 p q := ⟨j 0, j 1, eq_ix2 j⟩
  show k0_pay1 (iblk m c 0 t) (iblk m c 1 t) (ix2 p q)
    = proj (V m c main_arg0) (V m c main_v33) (((cfg0.win 2).blk t).view.emb (ix2 p q))
  refine (pay_apply (iblk m c 0 t) (iblk m c 1 t) p q).trans ?_
  unfold proj
  refine Finset.sum_congr rfl fun k _ => ?_
  have hr : (iblk m c 0 t : Vec Ideal S2000x128 .f32) (ix2 p k)
      = (V m c main_arg0 : S50000x128.Idx → EReal) (ix2 ((((cfg0.win 2).blk t).view.emb (ix2 p q)) 0) k) := by
    refine rows_apply m c t (ix2 p k) _ ?_ rfl
    show win0_2.index t (0 : Fin 2) * 2000 + 1 * p.val = t.val * 2000 + p.val
    rw [e4]; omega
  have hc : (iblk m c 1 t : Vec Ideal S128x1 .f32) (ix2 k q)
      = (V m c main_v33 : S128x1.Idx → EReal) (ix2 k ((((cfg0.win 2).blk t).view.emb (ix2 p q)) 1)) := by
    refine (col_apply m c t (ix2 k q)).trans (congrArg (V m c main_v33) (funext fun a => Fin.ext ?_))
    match a with
    | ⟨0, _⟩ => rfl
    | ⟨1, _⟩ =>
      show q.val = win0_2.index t (1 : Fin 2) * 1 + 1 * q.val
      rw [e5]; omega
  rw [hr, hc]

/-- An index of the array is in point `t`'s block iff each coordinate is in the block's range on its axis. -/
theorem mem_blk (t : Fin cfg0.N) (i : S50000x1.Idx) :
    i ∈ ((cfg0.win 2).blk t).view.set ↔ ∀ a : Fin 2, win0_2.index t a * S2000x1.size a ≤ (i a).val ∧ (i a).val < win0_2.index t a * S2000x1.size a + S2000x1.size a := by
  show i ∈ ((View.whole main_v34).slice (win0_2.rect t)).set ↔ _
  rw [View.set_slice_whole, Rect.mem_set_unit]
  exact Iff.rfl

/-- Row `r` lies in the block of point `r / 2000`: the 25 blocks tile the array. -/
theorem cover (i : S50000x1.Idx) :
    ∃ t : Fin cfg0.N, (cfg0.win 2).flush t = true ∧ i ∈ ((cfg0.win 2).blk t).view.set := by
  have hi0 : (i 0).val < 50000 := (i 0).isLt
  have hi1 : (i 1).val < 1 := (i 1).isLt
  have hN : cfg0.N = 25 := N_0
  refine ⟨⟨(i 0).val / 2000, by rw [hN]; omega⟩, flush0_2 _, ?_⟩
  rw [mem_blk]
  obtain ⟨-, -, -, -, e4, e5⟩ := idx_facts ⟨(i 0).val / 2000, by rw [hN]; omega⟩
  intro a
  match a with
  | ⟨0, _⟩ =>
    show win0_2.index _ (0 : Fin 2) * 2000 ≤ (i 0).val ∧ (i 0).val < win0_2.index _ (0 : Fin 2) * 2000 + 2000
    rw [e4]; show (i 0).val / 2000 * 2000 ≤ (i 0).val ∧ (i 0).val < (i 0).val / 2000 * 2000 + 2000; omega
  | ⟨1, _⟩ =>
    show win0_2.index _ (1 : Fin 2) * 1 ≤ (i 1).val ∧ (i 1).val < win0_2.index _ (1 : Fin 2) * 1 + 1
    rw [e5]; omega

/-- THE ARRAY the region leaves: the projection of the node features, as the region found them, by the column it found. -/
theorem final (c : Dev nD) : (dats m 0 c).arrAt 2 cfg0.N = proj (V m c main_arg0) (V m c main_v33) :=
  (dats m 0 c).arrAt_eq_of_cover 2 (proj (V m c main_arg0) (V m c main_v33)) (fun t _ => flushed_eq m c t) cover

end Cert.KernelIdeal.Proj

end
-- ==== Proof.LibSegmentSum.lean ====
import Idealize.ShloMosaic.PureOps.Ideal
import Idealize.ShloMosaic.Lib.ValueIdx

/-!
# A scatter-add of rows (`jax.ops.segment_sum`) read at one entry

`segment_sum(upd, ids, num_segments = N)` of an `E × C` array prints as the accumulating scatter of the `E` rows of
`upd` into an `N × C` operand, row `e` landing on row `ids e` (read signed, dropped when outside `[0, N)`). Over the
extended reals its entry `(n, c)` is the operand's entry plus the sum of `upd (e, c)` over the rows `e` with `ids e = n`.
-/

noncomputable section

namespace Idealize.ShloMosaic.SegmentSum

open Idealize.ShloMosaic Idealize.ShloMosaic.ValueIdx

/-- The dimension numbers of a scatter of `E` rows of width `C` into an `N × C` operand along axis 0, the row
    identifiers an `E × 1` column. -/
abbrev rowDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)

/-- On the operand's row axis the window of update index `j` starts at the identifier of `j`'s row, read signed. -/
theorem start_zero (j : (⟨2, ![E, C]⟩ : Shape).Idx) (idx : IVec ⟨2, ![E, 1]⟩ w) :
    (rowDims N E C wf).start j idx 0 = (idx (ix2 (j 0) (0 : Fin 1))).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the operand's column axis every window starts at `0`. -/
theorem start_one (j : (⟨2, ![E, C]⟩ : Shape).Idx) (idx : IVec ⟨2, ![E, 1]⟩ w) :
    (rowDims N E C wf).start j idx 1 = 0 := by
  unfold ScatterDims.start
  rw [dif_neg (show ¬ (1 : Fin 2) ∈ (rowDims N E C wf).scatterDimsToOperandDims from (by decide : (1 : Fin 2) ∉ ([0] : List (Fin 2))))]

/-- The row axis is inserted: its window coordinate is `0`. -/
theorem window_zero (j : (⟨2, ![E, C]⟩ : Shape).Idx) :
    (rowDims N E C wf).window j 0 = 0 := by
  unfold ScatterDims.window
  rw [dif_neg (show ¬ (0 : Fin 2) ∈ (rowDims N E C wf).sKept from (by decide : (0 : Fin 2) ∉ (List.finRange 2).filter (· ∉ ([0] : List (Fin 2)))))]

/-- The column axis carries the update's column coordinate. -/
theorem window_one (j : (⟨2, ![E, C]⟩ : Shape).Idx) :
    (rowDims N E C wf).window j 1 = (j 1).val := by
  unfold ScatterDims.window
  rw [dif_pos (show (1 : Fin 2) ∈ (rowDims N E C wf).sKept from (by decide : (1 : Fin 2) ∈ (List.finRange 2).filter (· ∉ ([0] : List (Fin 2)))))]
  rfl

/-- Update index `j` lands on operand index `i` exactly when the identifier of `j`'s row is `i`'s row and the two have
    the same column (the range conditions hold of themselves, `i` being an index of the operand). -/
theorem resultIdx?_eq_some_iff (j : (⟨2, ![E, C]⟩ : Shape).Idx) (idx : IVec ⟨2, ![E, 1]⟩ w)
    (i : (⟨2, ![N, C]⟩ : Shape).Idx) :
    (rowDims N E C wf).resultIdx? j idx = some i
      ↔ (idx (ix2 (j 0) (0 : Fin 1))).toInt = ((i 0).val : Int) ∧ (j 1).val = (i 1).val := by
  have hi0 := idx2_lt0 i
  have hj1 := idx2_lt1 j
  unfold ScatterDims.resultIdx?
  split_ifs with h
  · rw [Option.some.injEq]
    constructor
    · intro hf
      have h0 := congrArg (fun f => (f 0).val) hf
      have h1 := congrArg (fun f => (f 1).val) hf
      have hh0 := (h 0).1
      simp only [start_zero, window_zero, start_one, window_one] at h0 h1 hh0
      constructor <;> omega
    · rintro ⟨h0, h1⟩
      funext a
      refine Fin.ext ?_
      match a with
      | ⟨0, _⟩ =>
        show ((rowDims N E C wf).start j idx 0 + ((rowDims N E C wf).window j 0 : Int)).toNat = (i 0).val
        rw [start_zero, window_zero, h0]; omega
      | ⟨1, _⟩ =>
        show ((rowDims N E C wf).start j idx 1 + ((rowDims N E C wf).window j 1 : Int)).toNat = (i 1).val
        rw [start_one, window_one, h1]; omega
  · constructor
    · intro hf; exact absurd hf (by simp)
    · rintro ⟨h0, h1⟩
      refine absurd ?_ h
      intro a
      match a with
      | ⟨0, _⟩ =>
        show 0 ≤ (rowDims N E C wf).start j idx 0 + ((rowDims N E C wf).window j 0 : Int)
          ∧ (rowDims N E C wf).start j idx 0 + ((rowDims N E C wf).window j 0 : Int) < (N : Int)
        rw [start_zero, window_zero, h0]; omega
      | ⟨1, _⟩ =>
        show 0 ≤ (rowDims N E C wf).start j idx 1 + ((rowDims N E C wf).window j 1 : Int)
          ∧ (rowDims N E C wf).start j idx 1 + ((rowDims N E C wf).window j 1 : Int) < (C : Int)
        rw [start_one, window_one]; omega

end

/-- The accumulating row scatter over the extended reals at the entry `(n, c)`: the operand's entry plus the sum, over
    the update rows `e` whose identifier is `n`, of `upd (e, c)`. -/
theorem hostScatterAdd_rows {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowDims N E C wf) x idx upd (ix2 n c)
      = x (ix2 n c) + ∑ e : Fin E, if (idx (ix2 e (0 : Fin 1))).toInt = (n.val : Int) then upd (ix2 e c) else 0 := by
  unfold Ideal.hostScatterAdd
  congr 1
  rw [Finset.sum_filter, sum_idx2]
  refine Finset.sum_congr rfl fun e _ => ?_
  simp only [resultIdx?_eq_some_iff]
  show (∑ c' : Fin C, if (idx (ix2 e (0 : Fin 1))).toInt = (n.val : Int) ∧ c'.val = c.val then upd (ix2 e c') else 0) = _
  by_cases hr : (idx (ix2 e (0 : Fin 1))).toInt = (n.val : Int)
  · simp only [hr, true_and, if_true, Fin.val_inj]
    rw [Finset.sum_ite_eq' Finset.univ c (fun c' => upd (ix2 e c'))]
    simp
  · simp only [hr, false_and, if_false, Finset.sum_const_zero]

end Idealize.ShloMosaic.SegmentSum

end
-- ==== Proof.LibGatherRows.lean ====
import Idealize.ShloMosaic.PureOps
import Idealize.ShloMosaic.Lib.ValueIdx

/-!
# A row gather read at an index

jnp's `x[idx]` over a rank-2 table `x : [N, C]` and a vector of positions prints as a `stablehlo.gather` whose start
indices are the `[n, 1]` column of positions, whose axis 0 is collapsed and start-indexed and whose axis 1 is an offset
axis of full width. Result element `(p, q)` is `x` at row "position `p`'s start index, read signed and clamped into
`[0, N - 1]`" (StableHLO clamps every start index) and column `q`.
-/

noncomputable section

namespace Idealize.ShloMosaic.GatherRows

open Idealize.ShloMosaic Idealize.ShloMosaic.ValueIdx

/-- The row a start index names: the word read signed, clamped into `[0, N - 1]`. -/
def clampRow (N : Nat) (hN : 0 < N) {w : Nat} (v : BitVec w) : Fin N := ⟨min v.toInt.toNat (N - 1), by omega⟩

/-- Of the two axes `0, 1`, the ones other than `0` are `[1]`. -/
private theorem kept_two_of_zero : (List.finRange 2).filter (· ∉ ([0] : List (Fin 2))) = [1] := by decide

/-- Of the two axes `0, 1`, the ones other than `1` are `[0]`. -/
private theorem kept_two_of_one : (List.finRange 2).filter (· ∉ ([1] : List (Fin 2))) = [0] := by decide

/-- An entry of a one-element list is that element, at whatever position it is read. -/
private theorem getElem_of_eq_singleton {β : Type} {l : List β} {b : β} (hl : l = [b]) (i : Nat) (h : i < l.length) :
    l[i]'h = b := by
  subst hl
  exact List.mem_singleton.1 (List.getElem_mem h)

/-- THE ROW GATHER AT `(p, q)`: row `clampRow (idx p)` of the table, column `q`. The hypotheses are the printed
    dimension numbers, each closed by `rfl` at a program's literal record. -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) :
    Host.gather d x idx (ix2 p q) = x (ix2 (clampRow N hN (idx (ix2 p (0 : Fin 1)))) q) := by
  unfold Host.gather
  have hb0 : (0 : Fin 2) ∉ d.operandBatchingDims := by rw [hob]; exact List.not_mem_nil
  have hb1 : (1 : Fin 2) ∉ d.operandBatchingDims := by rw [hob]; exact List.not_mem_nil
  have hk0 : (0 : Fin 2) ∉ d.sKept := by rw [GatherDims.mem_sKept, hcoll]; simp
  have hsk : d.sKept = [1] := by
    show Shape.kept _ (d.collapsedSliceDims ++ d.operandBatchingDims) = [1]
    rw [hcoll, hob]
    exact kept_two_of_zero
  have hbd : d.batchDims = [0] := by
    show Shape.kept _ d.offsetDims = [0]
    rw [hoff]
    exact kept_two_of_one
  have hk1 : (1 : Fin 2) ∈ d.sKept := by rw [hsk]; exact List.mem_singleton.mpr rfl
  have hm0 : (0 : Fin 2) ∈ d.startIndexMap := by rw [hsim]; exact List.mem_singleton.mpr rfl
  have hm1 : (1 : Fin 2) ∉ d.startIndexMap := by
    rw [hsim]
    show (1 : Fin 2) ∉ ([0] : List (Fin 2))
    decide
  have hsl : d.sliceSizes 0 = 1 := d.slice_collapsed 0 (by rw [hcoll]; exact List.mem_singleton.mpr rfl)
  refine congrArg x (funext fun a => Fin.ext ?_)
  match a with
  | ⟨0, _⟩ =>
    show d.start (ix2 p q) idx 0 + d.batchCoord (ix2 p q) 0 + d.offCoord (ix2 p q) 0 = _
    rw [d.batchCoord_eq_zero _ _ hb0, d.offCoord_eq_zero _ _ hk0]
    simp only [Nat.add_zero]
    unfold GatherDims.start
    rw [dif_pos hm0]
    show min (idx _).toInt.toNat (N - d.sliceSizes 0) = min (idx (ix2 p (0 : Fin 1))).toInt.toNat (N - 1)
    rw [hsl]
    have hsi : d.siIdx (ix2 p q) ⟨List.idxOf (0 : Fin 2) d.startIndexMap, List.idxOf_lt_length_iff.2 hm0⟩
        = ix2 p (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        rw [getElem_of_eq_singleton hbd]
        rfl
      | ⟨1, _⟩ =>
        unfold GatherDims.siIdx
        rw [dif_pos (by rw [hivd])]
        show List.idxOf (0 : Fin 2) d.startIndexMap = 0
        rw [hsim]
        exact List.idxOf_cons_self
    rw [hsi]
  | ⟨1, _⟩ =>
    show d.start (ix2 p q) idx 1 + d.batchCoord (ix2 p q) 1 + d.offCoord (ix2 p q) 1 = q.val
    rw [d.batchCoord_eq_zero _ _ hb1]
    unfold GatherDims.start GatherDims.offCoord
    rw [dif_neg hm1, dif_pos hk1]
    simp only [Nat.zero_add]
    rw [getElem_of_eq_singleton hoff]
    rfl

end Idealize.ShloMosaic.GatherRows

end
-- ==== Proof.LibHopProject.lean ====
import Idealize.ShloMosaic.PureOps.Ideal

/-!
# A linear projection commutes with weighted neighbour aggregation

One hop of message passing over a multigraph: node `i` receives, from every edge `e` that lands on it, the edge's
weight times the value at the edge's source node. The hop is linear in the node values, so projecting a feature vector
to a scalar by fixed coefficients may be done before the hops or after them. Over the reals this is the exchange of two
finite sums; over the extended reals it holds as soon as weights, values and coefficients are all real numbers.
-/

noncomputable section

namespace Idealize.ShloMosaic.HopProject

open Finset

/-- The inclusion of the reals in the extended reals carries finite sums to finite sums. -/
theorem coe_sum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

variable {ι ε κ : Type} [Fintype ε] [Fintype κ]

/-- One hop: at node `i` the sum, over the edges `e` that land on `i`, of the weight `n e` times the value `f` at
    the edge's source `s e`. Written for any carrier with a sum and a product, so that the same definition is read over
    the reals and over the extended reals. -/
def hop {R : Type} [AddCommMonoid R] [Mul R] (lands : ε → ι → Prop) [∀ e i, Decidable (lands e i)]
    (n : ε → R) (s : ε → ι) (f : ι → R) (i : ι) : R :=
  ∑ e : ε, if lands e i then n e * f (s e) else 0

variable (lands : ε → ι → Prop) [∀ e i, Decidable (lands e i)] (s : ε → ι)

/-- A hop of real weights and real values, read over the extended reals, is the real hop. -/
theorem hop_coe (n : ε → ℝ) (f : ι → ℝ) (i : ι) :
    hop lands (fun e => (n e : EReal)) s (fun j => (f j : EReal)) i = ((hop lands n s f i : ℝ) : EReal) := by
  unfold hop
  rw [coe_sum]
  refine Finset.sum_congr rfl fun e _ => ?_
  by_cases h : lands e i
  · rw [if_pos h, if_pos h, EReal.coe_mul]
  · rw [if_neg h, if_neg h, EReal.coe_zero]

/-- Over the reals a hop is linear: the projection by coefficients `w` of the hops of the features is the hop of the
    projected values. -/
theorem hop_project_real (n : ε → ℝ) (f : κ → ι → ℝ) (w : κ → ℝ) (i : ι) :
    ∑ k : κ, hop lands n s (f k) i * w k = hop lands n s (fun j => ∑ k : κ, f k j * w k) i := by
  unfold hop
  simp only [Finset.sum_mul]
  rw [Finset.sum_comm]
  refine Finset.sum_congr rfl fun e _ => ?_
  by_cases h : lands e i
  · simp only [if_pos h, Finset.mul_sum, mul_assoc]
  · simp only [if_neg h, zero_mul, Finset.sum_const_zero]

/-- TWO HOPS THEN A PROJECTION IS A PROJECTION THEN TWO HOPS, over the extended reals, when every weight, every
    feature value and every coefficient is a real number. -/
theorem project_hop_hop (n : ε → EReal) (x : ι → κ → EReal) (w : κ → EReal)
    (hn : ∀ e, ∃ r : ℝ, n e = (r : EReal)) (hx : ∀ j k, ∃ r : ℝ, x j k = (r : EReal))
    (hw : ∀ k, ∃ r : ℝ, w k = (r : EReal)) (i : ι) :
    ∑ k : κ, hop lands n s (fun j => hop lands n s (fun j' => x j' k) j) i * w k
      = hop lands n s (fun j => hop lands n s (fun j' => ∑ k : κ, x j' k * w k) j) i := by
  choose nr hnr using hn
  choose xr hxr using hx
  choose wr hwr using hw
  obtain rfl : n = fun e => (nr e : EReal) := funext hnr
  obtain rfl : x = fun j k => (xr j k : EReal) := funext fun j => funext fun k => hxr j k
  obtain rfl : w = fun k => (wr k : EReal) := funext hwr
  have inner : ∀ j', (∑ k : κ, (xr j' k : EReal) * (wr k : EReal)) = ((∑ k : κ, xr j' k * wr k : ℝ) : EReal) := by
    intro j'
    rw [coe_sum]
    exact Finset.sum_congr rfl fun k _ => (EReal.coe_mul _ _).symm
  simp only [inner, hop_coe]
  -- the same exchange over the reals: the outer hop is linear, then the inner one
  have real : ∑ k : κ, hop lands nr s (hop lands nr s fun j' => xr j' k) i * wr k
      = hop lands nr s (hop lands nr s fun j' => ∑ k : κ, xr j' k * wr k) i := by
    rw [hop_project_real lands s nr (fun k => hop lands nr s fun j' => xr j' k) wr i]
    refine congrArg (fun g => hop lands nr s g i) (funext fun j => ?_)
    exact hop_project_real lands s nr (fun k j' => xr j' k) wr j
  refine Eq.trans ?_ (congrArg Real.toEReal real)
  rw [coe_sum]
  exact Finset.sum_congr rfl fun k _ => (EReal.coe_mul _ _).symm

end Idealize.ShloMosaic.HopProject

end
-- ==== Proof.LibHopRead.lean ====
import proofs.«159129_j91250875171026_1_alg».proof.Proof.LibSegmentSum
import proofs.«159129_j91250875171026_1_alg».proof.Proof.LibGatherRows
import proofs.«159129_j91250875171026_1_alg».proof.Proof.LibHopProject
import Idealize.ShloMosaic.Lib.Pipeline.Value
import Idealize.ShloMosaic.Lib.ValueIdx
import Idealize.ShloMosaic.PureOps.Ideal

/-!
# One hop of message passing over an edge list, read at one entry

One hop over an `N × C` table `h` prints as an accumulating scatter, into zeros, of the products of a weights array with
the row gather of `h` at the edges' source positions, each row landing on its edge's destination identifier. Over the
extended reals its entry `(n, c)` is the hop of `HopProject`: the sum, over the edges `e` whose destination identifier is
`n`, of the weight of `e` times `h` at row "source position of `e`, clamped into the table" and column `c`. The source
positions are first wrapped: a word read negative gets the table's length added.
-/

noncomputable section

namespace Idealize.ShloMosaic.HopRead

open Idealize.ShloMosaic Idealize.ShloMosaic.ValueIdx Idealize.ShloMosaic.SegmentSum Idealize.ShloMosaic.GatherRows
  Idealize.ShloMosaic.HopProject

/-- The wrap of a position `v` into a table of length `L`: `v + L` when `v` reads negative, else `v`. -/
def wrapWord (L v : BitVec 32) : BitVec 32 := Scalar.select (IntOp.cmpi .slt v 0#32) (IntOp.addi v L) v

/-- Edge `e` lands on node `n`: its destination identifier, read signed, is `n` (an identifier outside the table lands
    nowhere). -/
abbrev landsOn {E N : Nat} (dst : IVec ⟨1, ![E]⟩ 32) (e : Fin E) (n : Fin N) : Prop := (dst (ix1 e)).toInt = (n.val : Int)

/-- The table row edge `e` reads: its source position, wrapped, read signed and clamped into `[0, N - 1]`. -/
def rowOf {E : Nat} (N : Nat) (hN : 0 < N) (L : BitVec 32) (src : IVec ⟨1, ![E]⟩ 32) (e : Fin E) : Fin N :=
  clampRow N hN (wrapWord L (src (ix1 e)))

/-- A vector broadcast to a column, read at row `e`: the vector's entry `e`. -/
theorem bcast_col {α : Type} {E : Nat} (hb : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ (![0] : Fin 1 → Fin 2) hb v (ix2 e (0 : Fin 1)) = v (ix1 e) := by
  refine broadcastInDim_apply _ hb v _ (ix1 e) fun a => ?_
  match a with
  | ⟨0, _⟩ =>
    show e.val = if E = 1 then 0 else e.val
    split_ifs with h
    · have := e.isLt; omega
    · rfl

/-- A scalar broadcast to a vector, read anywhere: the scalar. -/
theorem bcast_scalar {α : Type} {s : Shape} (hb : (⟨0, ![]⟩ : Shape).BroadcastsInDim s (![] : Fin 0 → Fin s.rank))
    (v : (⟨0, ![]⟩ : Shape).Idx → α) (i : s.Idx) (k : (⟨0, ![]⟩ : Shape).Idx) :
    broadcastInDim s (![] : Fin 0 → Fin s.rank) hb v i = v k :=
  broadcastInDim_apply _ hb v i k fun a => a.elim0

/-- The wrapped positions, read at one entry. -/
theorem wrap_apply {s : Shape} (hb : (⟨0, ![]⟩ : Shape).BroadcastsInDim s (![] : Fin 0 → Fin s.rank)) (L : BitVec 32)
    (src : IVec s 32) (i : s.Idx) :
    select (cmpi .slt src (broadcastInDim s (![] : Fin 0 → Fin s.rank) hb (constantI ⟨0, ![]⟩ 32 0#32)))
        (addi src (broadcastInDim s (![] : Fin 0 → Fin s.rank) hb (constantI ⟨0, ![]⟩ 32 L))) src i
      = wrapWord L (src i) := by
  show Scalar.select (IntOp.cmpi .slt (src i) (broadcastInDim s _ hb (constantI ⟨0, ![]⟩ 32 0#32) i))
    (IntOp.addi (src i) (broadcastInDim s _ hb (constantI ⟨0, ![]⟩ 32 L) i)) (src i) = _
  rw [bcast_scalar hb _ i (fun a => a.elim0), bcast_scalar hb _ i (fun a => a.elim0)]
  rfl

/-- ONE HOP READ AT `(n, c)`. The weights array `wts` holds the edge weight `nrm e` in every column of row `e`; `z` is
    the zero array the scatter accumulates into. -/
theorem hop_read {N E C : Nat} (hN : 0 < N)
    (wf : ScatterDims.WF ⟨2, ![N, C]⟩ ⟨2, ![E, 1]⟩ ⟨2, ![E, C]⟩ [1] [0] [0] 1)
    (dg : GatherDims ⟨2, ![N, C]⟩ ⟨2, ![E, 1]⟩ ⟨2, ![E, C]⟩)
    (hoff : dg.offsetDims = [1]) (hcoll : dg.collapsedSliceDims = [0]) (hob : dg.operandBatchingDims = [])
    (hsim : dg.startIndexMap = [0]) (hivd : dg.indexVectorDim = 1)
    (hb : (⟨1, ![E]⟩ : Shape).BroadcastsInDim ⟨2, ![E, 1]⟩ (![0] : Fin 1 → Fin 2))
    (z : (⟨2, ![N, C]⟩ : Shape).Idx → EReal) (hz : ∀ i, z i = 0)
    (dst srcw : IVec ⟨1, ![E]⟩ 32)
    (wts : FVec Ideal ⟨2, ![E, C]⟩ .f32) (nrm : Fin E → EReal) (hw : ∀ e c, wts (ix2 e c) = nrm e)
    (h : FVec Ideal ⟨2, ![N, C]⟩ .f32) (n : Fin N) (c : Fin C) :
    Ideal.hostScatterAdd (rowDims N E C wf) z (broadcastInDim ⟨2, ![E, 1]⟩ (![0] : Fin 1 → Fin 2) hb dst)
        (mulf wts (Host.gather dg h (broadcastInDim ⟨2, ![E, 1]⟩ (![0] : Fin 1 → Fin 2) hb srcw))) (ix2 n c)
      = hop (landsOn dst) nrm (fun e => clampRow N hN (srcw (ix1 e))) (fun j => h (ix2 j c)) n := by
  rw [hostScatterAdd_rows, hz, zero_add]
  unfold hop landsOn
  refine Finset.sum_congr rfl fun e _ => ?_
  rw [bcast_col hb dst e]
  by_cases hl : (dst (ix1 e)).toInt = (n.val : Int)
  · rw [if_pos hl, if_pos hl, mulf_apply, hw, gather_rows_apply hN dg hoff hcoll hob hsim hivd, bcast_col hb srcw e]
  · rw [if_neg hl, if_neg hl]

/-- THE SAME HOP IN THE PROGRAM'S OWN SPELLING: the scatter as the host operation at any dimension numbers equal to the
    row ones, the gathered positions the wrap of the source words. Stated at symbolic sizes, so that a program's literal term
    meets it by matching alone. -/
theorem hop_read_host {N E C : Nat} (hN : 0 < N)
    (ds : ScatterDims ⟨2, ![N, C]⟩ ⟨2, ![E, 1]⟩ ⟨2, ![E, C]⟩)
    (wf : ScatterDims.WF ⟨2, ![N, C]⟩ ⟨2, ![E, 1]⟩ ⟨2, ![E, C]⟩ [1] [0] [0] 1) (hds : ds = rowDims N E C wf)
    (dg : GatherDims ⟨2, ![N, C]⟩ ⟨2, ![E, 1]⟩ ⟨2, ![E, C]⟩)
    (hoff : dg.offsetDims = [1]) (hcoll : dg.collapsedSliceDims = [0]) (hob : dg.operandBatchingDims = [])
    (hsim : dg.startIndexMap = [0]) (hivd : dg.indexVectorDim = 1)
    (hb : (⟨1, ![E]⟩ : Shape).BroadcastsInDim ⟨2, ![E, 1]⟩ (![0] : Fin 1 → Fin 2))
    (hb0 : (⟨0, ![]⟩ : Shape).BroadcastsInDim ⟨1, ![E]⟩ (![] : Fin 0 → Fin 1)) (L : BitVec 32)
    (z : FVec Ideal ⟨2, ![N, C]⟩ .f32) (hz : ∀ i, z i = 0)
    (dst src : IVec ⟨1, ![E]⟩ 32)
    (wts : FVec Ideal ⟨2, ![E, C]⟩ .f32) (nrm : Fin E → EReal) (hw : ∀ e c, wts (ix2 e c) = nrm e)
    (h : FVec Ideal ⟨2, ![N, C]⟩ .f32) (n : Fin N) (c : Fin C) :
    Host.scatterAdd ds z (broadcastInDim ⟨2, ![E, 1]⟩ (![0] : Fin 1 → Fin 2) hb dst)
        (mulf wts (Host.gather dg h (broadcastInDim ⟨2, ![E, 1]⟩ (![0] : Fin 1 → Fin 2) hb
          (select (cmpi .slt src (broadcastInDim ⟨1, ![E]⟩ (![] : Fin 0 → Fin 1) hb0 (constantI ⟨0, ![]⟩ 32 0#32)))
            (addi src (broadcastInDim ⟨1, ![E]⟩ (![] : Fin 0 → Fin 1) hb0 (constantI ⟨0, ![]⟩ 32 L))) src)))) (ix2 n c)
      = hop (landsOn dst) nrm (rowOf N hN L src) (fun j => h (ix2 j c)) n := by
  subst hds
  refine (hop_read hN wf dg hoff hcoll hob hsim hivd hb z hz dst _ wts nrm hw h n c).trans ?_
  refine congrArg (fun r => hop (landsOn dst) nrm r (fun j => h (ix2 j c)) n) (funext fun e => ?_)
  unfold rowOf
  exact congrArg (clampRow N hN) (wrap_apply hb0 L src (ix1 e))

/-- An accumulating scatter of real updates into a real operand, in the program's spelling, is real at every entry. -/
theorem scatterAdd_real {s si su : Shape} (d : ScatterDims s si su) {w : Nat} (x : FVec Ideal s .f32) (idx : IVec si w)
    (upd : FVec Ideal su .f32) (hx : ∀ i, ∃ r : ℝ, x i = (r : EReal)) (hu : ∀ j, ∃ r : ℝ, upd j = (r : EReal)) (i : s.Idx) :
    ∃ r : ℝ, Host.scatterAdd d x idx upd i = (r : EReal) := by
  choose xr hxr using hx
  choose ur hur using hu
  refine ⟨xr i + ∑ j ∈ Finset.univ.filter (fun j => d.resultIdx? j idx = some i), ur j, ?_⟩
  show Ideal.hostScatterAdd d x idx upd i = _
  unfold Ideal.hostScatterAdd
  rw [EReal.coe_add, coe_sum, hxr]
  exact congrArg _ (Finset.sum_congr rfl fun j _ => hur j)

end Idealize.ShloMosaic.HopRead

end
-- ==== Proof.KernelTail.lean ====
import proofs.«159129_j91250875171026_1_alg».proof.Proof.Gen.KernelIdeal.Frame
import proofs.«159129_j91250875171026_1_alg».proof.Proof.LibHopRead
import Idealize.ShloMosaic.Lib.StableHlo.Run
import Idealize.ShloMosaic.Lib.Pipeline.Value
import Idealize.ShloMosaic.Lib.ValueIdx
import Idealize.ShloMosaic.PureOps.Ideal.Laws

/-!
# The kernel's lines after the region: two hops of one number per node

After the region the kernel holds one projected number per node. The remaining lines push that column through the same
hop twice and add the bias. Read at node `i` the result is the two-hop value of the projected column at `i`, plus the bias.
-/

noncomputable section

open Idealize.ShloMosaic Idealize.ShloMosaic.TcCoe Idealize.SL.Sem Idealize.ShloMosaic.StableHlo
open Idealize.ShloMosaic.ValueIdx Idealize.ShloMosaic.HopRead Idealize.ShloMosaic.HopProject

namespace Cert.KernelIdeal.Tail

open Cert.KernelIdeal Cert.KernelIdeal.Gen

section Term

variable {F : FTy → Type} [FloatOps F]

/-- One hop of a column of node values, as the program spells it: the scatter, into zeros and by destination, of the
    edge weights times the column gathered at the wrapped source positions. -/
def hopCol (src dst : IVec S850000 32) (nrm : FVec F S850000 .f32) (h : FVec F S50000x1 .f32) : FVec F S50000x1 .f32 :=
  Host.scatterAdd scatter_S50000x1_S850000x1_S850000x1_1_0_0_1
    (broadcastInDim S50000x1 ![] bcast_S_S50000x1 (constant S_ .f32 0x00000000#32))
    (broadcastInDim S850000x1 ![0] bcast_S850000_S850000x1_0 dst)
    (mulf (broadcastInDim S850000x1 ![0] bcast_S850000_S850000x1_0 nrm)
      (Host.gather gather_S50000x1_S850000x1_S850000x1_1_0_n_n_0_1_11 h
        (broadcastInDim S850000x1 ![0] bcast_S850000_S850000x1_0
          (select (cmpi .slt src (broadcastInDim S850000 ![] bcast_S_S850000 (constantI S_ 32 0#32)))
            (addi src (broadcastInDim S850000 ![] bcast_S_S850000 (constantI S_ 32 50000#32))) src))))

/-- The lines after the region as one function of what they read: two hops of the column `y`, the bias added, the unit
    axis dropped. -/
def result (src dst : IVec S850000 32) (nrm : FVec F S850000 .f32) (b : FVec F S1 .f32) (y : FVec F S50000x1 .f32) :
    FVec F S50000 .f32 :=
  shapeCast S50000
    (addf (hopCol src dst nrm (hopCol src dst nrm y))
      (broadcastInDim S50000x1 ![0, 1] bcast_S1x1_S50000x1_0_1 (broadcastInDim S1x1 ![1] bcast_S1_S1x1_1 b)))
    shapeCasts_S50000x1_S50000

variable (m : (ℓ : Loc nD τ sig) → Buf (Elt F) ℓ)

set_option maxHeartbeats 2000000 in
/-- What the run leaves in the result buffer: that function of the source and destination words, the edge weights and
    the bias as the region found them, and of the array the region wrote. -/
theorem tail_value (c : Dev nD) :
    Pipeline.afterTail₀ cfgs (dats m) 0 (V0 m) [hostOps1] c main_v62
      = result (V m c main_v3) (V m c main_v6) (V m c main_v32) (V m c main_arg3) ((dats m 0 c).arrAt 2 cfg0.N) := by
  unfold Pipeline.afterTail₀
  show StableHlo.after hostOps1 _ (Proc.devRef .tc main_v62) = _
  after_results_simp
  have e34 : Pipeline.withArrays (cfgs 0).spec c (V0 m c) (fun w => (dats m 0 c).arrAt w (cfgs 0).N)
      (Proc.devRef .tc main_v34) = (dats m 0 c).arrAt 2 cfg0.N :=
    Pipeline.withArrays_arr spec0 launch0.win.arr_inj c _ _ 2
  rw [Pipeline.withArrays_of_ne _ c (V0 m c) _ main_v6 (by exact (by decide : ∀ w, Pipeline.arrRef spec0 w ≠ main_v6)),
    Pipeline.withArrays_of_ne _ c (V0 m c) _ main_v32 (by exact (by decide : ∀ w, Pipeline.arrRef spec0 w ≠ main_v32)),
    Pipeline.withArrays_of_ne _ c (V0 m c) _ main_v3 (by exact (by decide : ∀ w, Pipeline.arrRef spec0 w ≠ main_v3)),
    Pipeline.withArrays_of_ne _ c (V0 m c) _ main_arg3 (by exact (by decide : ∀ w, Pipeline.arrRef spec0 w ≠ main_arg3)),
    e34]
  rfl

end Term

section Read

variable (src dst : IVec S850000 32) (nrm : FVec Ideal S850000 .f32) (b : FVec Ideal S1 .f32)

/-- The printed scatter's dimension numbers are those of a scatter of rows. -/
theorem scat_rows : scatter_S50000x1_S850000x1_S850000x1_1_0_0_1
    = SegmentSum.rowDims 50000 850000 1 scatter_S50000x1_S850000x1_S850000x1_1_0_0_1.wf := rfl

/-- The zero column a hop accumulates into. -/
theorem zeros_apply (i : S50000x1.Idx) :
    broadcastInDim S50000x1 ![] bcast_S_S50000x1 (constant (F := Ideal) S_ .f32 0x00000000#32) i = 0 := by
  rw [bcast_scalar _ _ i (fun a => a.elim0)]
  exact Ideal.ofBits_zero_f32

/-- The weights column holds the edge's weight in its one column. -/
theorem wts_apply (e : Fin 850000) (c : Fin 1) :
    broadcastInDim S850000x1 ![0] bcast_S850000_S850000x1_0 nrm (ix2 e c) = nrm (ix1 e) := by
  obtain rfl : c = 0 := Subsingleton.elim _ _
  exact bcast_col _ nrm e

/-- ONE COLUMN HOP at node `n`. -/
theorem hopCol_apply (h : FVec Ideal S50000x1 .f32) (n : Fin 50000) :
    hopCol src dst nrm h (ix2 n (0 : Fin 1))
      = hop (landsOn dst) (fun e => nrm (ix1 e)) (rowOf 50000 (by decide) 50000#32 src)
          (fun j => h (ix2 j (0 : Fin 1))) n := by
  unfold hopCol
  have h1 := @hop_read_host 50000 850000 1 (by decide)
    scatter_S50000x1_S850000x1_S850000x1_1_0_0_1 scatter_S50000x1_S850000x1_S850000x1_1_0_0_1.wf scat_rows
  have h2 := h1 gather_S50000x1_S850000x1_S850000x1_1_0_n_n_0_1_11 rfl rfl rfl rfl rfl
  have h3 := h2 bcast_S850000_S850000x1_0 bcast_S_S850000 50000#32
  have h4 := h3 (broadcastInDim S50000x1 ![] bcast_S_S50000x1 (constant S_ .f32 0x00000000#32)) zeros_apply
  have h5 := h4 dst src
  have h6 := h5 (broadcastInDim S850000x1 ![0] bcast_S850000_S850000x1_0 nrm) (fun e => nrm (ix1 e)) (wts_apply nrm)
  exact h6 h n 0

/-- Dropping the unit axis: entry `i` of the vector is entry `(i, 0)` of the column. -/
theorem drop_unit (z : FVec Ideal S50000x1 .f32) (i : Fin 50000) :
    shapeCast S50000 z shapeCasts_S50000x1_S50000 (ix1 i) = z (ix2 i (0 : Fin 1)) :=
  shapeCast_apply z shapeCasts_S50000x1_S50000 (ix1 i) (ix2 i (0 : Fin 1))
    (by rewrite [Shape.rowMajor_val_two, Shape.rowMajor_val_one]; show i.val * 1 + 0 = i.val; omega)

/-- The bias, broadcast to the column, read anywhere: the bias. -/
theorem bias_apply (i : Fin 50000) :
    broadcastInDim S50000x1 ![0, 1] bcast_S1x1_S50000x1_0_1 (broadcastInDim S1x1 ![1] bcast_S1_S1x1_1 b) (ix2 i (0 : Fin 1))
      = b (ix1 (0 : Fin 1)) := by
  rw [broadcastInDim_apply _ bcast_S1x1_S50000x1_0_1 _ (ix2 i (0 : Fin 1)) (ix2 (0 : Fin 1) (0 : Fin 1)) (fun a => match a with
    | ⟨0, _⟩ => by show 0 = if (1 : Nat) = 1 then 0 else i.val; rw [if_pos rfl]
    | ⟨1, _⟩ => by show 0 = if (1 : Nat) = 1 then 0 else 0; rw [if_pos rfl])]
  exact broadcastInDim_apply _ bcast_S1_S1x1_1 b (ix2 (0 : Fin 1) (0 : Fin 1)) (ix1 (0 : Fin 1)) (fun a => match a with
    | ⟨0, _⟩ => by show 0 = if (1 : Nat) = 1 then 0 else 0; rw [if_pos rfl])

/-- THE LINES AFTER THE REGION AT NODE `i`: the two-hop value of the column `y` at `i`, plus the bias. -/
theorem result_apply (y : FVec Ideal S50000x1 .f32) (i : Fin 50000) :
    result src dst nrm b y (ix1 i)
      = hop (landsOn dst) (fun e => nrm (ix1 e)) (rowOf 50000 (by decide) 50000#32 src)
          (fun j => hop (landsOn dst) (fun e => nrm (ix1 e)) (rowOf 50000 (by decide) 50000#32 src)
            (fun j' => y (ix2 j' (0 : Fin 1))) j) i
        + b (ix1 (0 : Fin 1)) := by
  unfold result
  refine (drop_unit _ i).trans ?_
  refine (addf_apply _ _ _).trans ?_
  refine congrArg₂ (· + ·) ((hopCol_apply src dst nrm _ i).trans ?_) (bias_apply b i)
  refine congrArg (fun g => hop (landsOn dst) (fun e => nrm (ix1 e)) (rowOf 50000 (by decide) 50000#32 src) g i)
    (funext fun j => ?_)
  exact hopCol_apply src dst nrm y j

end Read

end Cert.KernelIdeal.Tail

end
-- ==== Proof.Shared.lean ====
import proofs.«159129_j91250875171026_1_alg».proof.Proof.Gen.KernelIdeal.Frame
import proofs.«159129_j91250875171026_1_alg».proof.Proof.RefRead
import Idealize.ShloMosaic.Lib.StableHlo.Run

/-!
# What the two programs compute alike

Before its region the kernel's program builds, from the edge words alone, the same source and destination words, the same
degree factors and the same two gathered factors as the reference does, and transposes the coefficients the same way. Each
array the region and the later lines read is therefore the reference's own stage of the same inputs; only the product of the
two gathered factors is spelt differently (the reference multiplies by the unit edge weight in between).
-/

noncomputable section

open Idealize.ShloMosaic Idealize.ShloMosaic.TcCoe Idealize.SL.Sem Idealize.ShloMosaic.StableHlo

namespace Cert.KernelIdeal.Shared

open Cert.KernelIdeal Cert.KernelIdeal.Gen

variable {F : FTy → Type} [FloatOps F]
variable (m : (ℓ : Loc nD τ sig) → Buf (Elt F) ℓ)

/-- The source words: the first row of the edge words, then every node's own index. -/
theorem src_eq (c : Dev nD) :
    (V m c main_v3 : (⟨S850000, .i32⟩ : BufTy).Contents (Elt F))
      = Cert.ReferenceIdeal.Read.val_main_v3 (F := F) (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  all_goals rfl

/-- The destination words: the second row of the edge words, then every node's own index. -/
theorem dst_eq (c : Dev nD) :
    (V m c main_v6 : (⟨S850000, .i32⟩ : BufTy).Contents (Elt F))
      = Cert.ReferenceIdeal.Read.val_main_v6 (F := F) (m ((c : Thread nD τ).loc main_arg1)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  all_goals rfl

set_option maxHeartbeats 4000000 in
/-- The edge weights: the factor gathered at the source times the factor gathered at the destination. -/
theorem weight_eq (c : Dev nD) :
    (V m c main_v32 : (⟨S850000, .f32⟩ : BufTy).Contents (Elt F))
      = mulf (Cert.ReferenceIdeal.Read.val_main_v24 (F := F) (m ((c : Thread nD τ).loc main_arg1)))
          (Cert.ReferenceIdeal.Read.val_main_v32 (F := F) (m ((c : Thread nD τ).loc main_arg1))) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  all_goals rfl

/-- The coefficient column: the coefficients transposed. -/
theorem coef_eq (c : Dev nD) :
    (V m c main_v33 : (⟨S128x1, .f32⟩ : BufTy).Contents (Elt F))
      = Cert.ReferenceIdeal.Read.val_main_v60 (F := F) (m ((c : Thread nD τ).loc main_arg2)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results_simp
  all_goals rfl

end Cert.KernelIdeal.Shared

end
-- ==== Proof.RefValue.lean ====
import proofs.«159129_j91250875171026_1_alg».proof.Proof.RefRead
import proofs.«159129_j91250875171026_1_alg».proof.Proof.LibHopRead
import Idealize.ShloMosaic.Lib.IdealHost
import Idealize.ShloMosaic.PureOps.Ideal.Laws

/-!
# The reference, read at one node

The reference propagates all 128 features of every node through two hops and projects afterwards. Read at node `i`, its
result is the sum over the features `k` of "the two-hop value of feature `k` at `i`" times the coefficient of `k`, plus the
bias. The edge weight is the product of the two gathered degree factors with the unit edge weight between them.
-/

noncomputable section

open Idealize.ShloMosaic Idealize.ShloMosaic.ValueIdx Idealize.ShloMosaic.HopRead Idealize.ShloMosaic.HopProject
  Idealize.ShloMosaic.GatherRows Idealize.ShloMosaic.SegmentSum

namespace Cert.ReferenceIdeal.HopValue

open Cert.ReferenceIdeal Cert.ReferenceIdeal.Gen Cert.ReferenceIdeal.Read

variable (x0 : (⟨S50000x128, .f32⟩ : BufTy).Contents (Elt Ideal)) (a1 : (⟨S2x800000, .i32⟩ : BufTy).Contents (Elt Ideal))
  (x2 : (⟨S1x128, .f32⟩ : BufTy).Contents (Elt Ideal)) (x3 : (⟨S1, .f32⟩ : BufTy).Contents (Elt Ideal))

/-- Two indices of a vector with the same coordinate are the same index. -/
theorem idx1_eq {n : Nat} (j : (⟨1, ![n]⟩ : Shape).Idx) (e : Fin n) (h : (j 0).val = e.val) : j = ix1 e :=
  (eq_ix1 j).trans (congrArg ix1 (Fin.ext h))

/-- Two indices of a matrix with the same coordinates are the same index. -/
theorem idx2_eq {n0 n1 : Nat} (j : (⟨2, ![n0, n1]⟩ : Shape).Idx) (p : Fin n0) (q : Fin n1) (h0 : (j 0).val = p.val)
    (h1 : (j 1).val = q.val) : j = ix2 p q :=
  (eq_ix2 j).trans (congrArg₂ ix2 (Fin.ext h0) (Fin.ext h1))

/-- The edge weight of the reference. -/
def weight (e : Fin 850000) : EReal := val_main_v33 (F := Ideal) a1 (ix1 e)

/-- It is the product of the degree factor gathered at the source and the one gathered at the destination: the unit
    edge weight between them changes nothing. -/
theorem weight_eq (e : Fin 850000) :
    weight a1 e = val_main_v24 (F := Ideal) a1 (ix1 e) * val_main_v32 (F := Ideal) a1 (ix1 e) := by
  unfold weight
  rw [val_main_v33_apply, val_main_v25_apply, val_main_v7_apply, val_main_cst_apply]
  show (val_main_v24 (F := Ideal) a1 (ix1 e) * Ideal.ofBits .f32 0x3F800000#32) * val_main_v32 (F := Ideal) a1 (ix1 e) = _
  rw [Ideal.ofBits_one_f32, mul_one]

/-- The weights array of the first hop holds the edge's weight in each of the 128 columns. -/
theorem wts1 (e : Fin 850000) (c : Fin 128) : val_main_v42 (F := Ideal) a1 (ix2 e c) = weight a1 e := by
  rw [val_main_v42_apply, val_main_v34_apply]
  exact congrArg (val_main_v33 (F := Ideal) a1) (idx1_eq _ e rfl)

/-- And so does the second hop's. -/
theorem wts2 (e : Fin 850000) (c : Fin 128) : val_main_v55 (F := Ideal) a1 (ix2 e c) = weight a1 e := by
  rw [val_main_v55_apply, val_main_v47_apply]
  exact congrArg (val_main_v33 (F := Ideal) a1) (idx1_eq _ e rfl)

/-- The printed scatter's dimension numbers are those of a scatter of rows. -/
theorem scat_rows : scatter_S50000x128_S850000x1_S850000x128_1_0_0_1
    = rowDims 50000 850000 128 scatter_S50000x128_S850000x1_S850000x128_1_0_0_1.wf := rfl

/-- The zero array a hop accumulates into. -/
theorem zeros_apply (i : S50000x128.Idx) :
    broadcastInDim S50000x128 ![] bcast_S_S50000x128 (constant (F := Ideal) S_ .f32 0x00000000#32) i = 0 := by
  rw [bcast_scalar _ _ i (fun a => a.elim0)]
  exact Ideal.ofBits_zero_f32

/-- THE FIRST HOP at `(n, c)`: feature `c` of the node features, gathered over the edges landing on `n`. -/
theorem hop1_apply (n : Fin 50000) (c : Fin 128) :
    val_main_v46 (F := Ideal) x0 a1 (ix2 n c)
      = hop (landsOn (val_main_v6 (F := Ideal) a1)) (weight a1)
          (rowOf 50000 (by decide) 50000#32 (val_main_v3 (F := Ideal) a1)) (fun j => x0 (ix2 j c)) n := by
  unfold val_main_v46 val_main_v45 val_main_v44 val_main_v43 val_main_v41 val_main_v40 val_main_v39 val_main_v36
    val_main_v38 val_main_v35 val_main_v37 val_main_c_8 val_main_c_9 val_main_cst_10
  have h1 := @hop_read_host 50000 850000 128 (by decide)
    scatter_S50000x128_S850000x1_S850000x128_1_0_0_1 scatter_S50000x128_S850000x1_S850000x128_1_0_0_1.wf scat_rows
  have h2 := h1 gather_S50000x128_S850000x1_S850000x128_1_0_n_n_0_1_1128 rfl rfl rfl rfl rfl
  have h3 := h2 bcast_S850000_S850000x1_0 bcast_S_S850000 50000#32
  have h4 := h3 (broadcastInDim S50000x128 ![] bcast_S_S50000x128 (constant S_ .f32 0x00000000#32)) zeros_apply
  have h5 := h4 (val_main_v6 (F := Ideal) a1) (val_main_v3 (F := Ideal) a1)
  have h6 := h5 (val_main_v42 (F := Ideal) a1) (weight a1) (wts1 a1)
  exact h6 x0 n c

/-- THE SECOND HOP at `(n, c)`: the same gathering of the first hop's result. -/
theorem hop2_apply (n : Fin 50000) (c : Fin 128) :
    val_main_v59 (F := Ideal) x0 a1 (ix2 n c)
      = hop (landsOn (val_main_v6 (F := Ideal) a1)) (weight a1)
          (rowOf 50000 (by decide) 50000#32 (val_main_v3 (F := Ideal) a1))
          (fun j => val_main_v46 (F := Ideal) x0 a1 (ix2 j c)) n := by
  unfold val_main_v59 val_main_v58 val_main_v57 val_main_v56 val_main_v54 val_main_v53 val_main_v52 val_main_v49
    val_main_v51 val_main_v48 val_main_v50 val_main_c_11 val_main_c_12 val_main_cst_13
  have h1 := @hop_read_host 50000 850000 128 (by decide)
    scatter_S50000x128_S850000x1_S850000x128_1_0_0_1 scatter_S50000x128_S850000x1_S850000x128_1_0_0_1.wf scat_rows
  have h2 := h1 gather_S50000x128_S850000x1_S850000x128_1_0_n_n_0_1_1128 rfl rfl rfl rfl rfl
  have h3 := h2 bcast_S850000_S850000x1_0 bcast_S_S850000 50000#32
  have h4 := h3 (broadcastInDim S50000x128 ![] bcast_S_S50000x128 (constant S_ .f32 0x00000000#32)) zeros_apply
  have h5 := h4 (val_main_v6 (F := Ideal) a1) (val_main_v3 (F := Ideal) a1)
  have h6 := h5 (val_main_v55 (F := Ideal) a1) (weight a1) (wts2 a1)
  exact h6 (val_main_v46 (F := Ideal) x0 a1) n c

/-- THE REFERENCE AT NODE `i`: the projection, by the coefficients, of the two-hop values of the 128 features, plus the
    bias. -/
theorem result_apply (i : Fin 50000) :
    val_main_v65 (F := Ideal) x0 a1 x2 x3 (ix1 i)
      = (∑ k : Fin 128,
          hop (landsOn (val_main_v6 (F := Ideal) a1)) (weight a1) (rowOf 50000 (by decide) 50000#32 (val_main_v3 (F := Ideal) a1))
            (fun j => hop (landsOn (val_main_v6 (F := Ideal) a1)) (weight a1)
              (rowOf 50000 (by decide) 50000#32 (val_main_v3 (F := Ideal) a1)) (fun j' => x0 (ix2 j' k)) j) i
            * x2 (ix2 (0 : Fin 1) k))
        + x3 (ix1 (0 : Fin 1)) := by
  rw [val_main_v65_apply, val_main_v64_apply, val_main_v61_apply, val_main_v63_apply, val_main_v62_apply]
  rw [Ideal.addf_def]
  refine congrArg₂ (· + ·) ?_ ?_
  · refine Finset.sum_congr rfl fun k _ => ?_
    rw [val_main_v60_apply,
      show lidx_main_v61 (idx_main_v65 (ix1 i)) k = ix2 i k from idx2_eq _ i k (Nat.div_one i.val) rfl, hop2_apply]
    refine congrArg₂ (· * ·) ?_ ?_
    · refine congrArg (fun g => hop (landsOn (val_main_v6 (F := Ideal) a1)) (weight a1)
        (rowOf 50000 (by decide) 50000#32 (val_main_v3 (F := Ideal) a1)) g i) (funext fun j => ?_)
      exact hop1_apply x0 a1 j k
    · exact congrArg x2 (idx2_eq _ (0 : Fin 1) k rfl rfl)
  · exact congrArg x3 (idx1_eq _ (0 : Fin 1) rfl)

end Cert.ReferenceIdeal.HopValue

end
-- ==== Proof.RefDegree.lean ====
import proofs.«159129_j91250875171026_1_alg».proof.Proof.RefRead
import proofs.«159129_j91250875171026_1_alg».proof.Proof.LibHopRead
import Idealize.ShloMosaic.Lib.IdealHost
import Idealize.ShloMosaic.PureOps.Ideal.Laws

/-!
# The degree factors are real numbers

A node's degree is the number of edges landing on it: an accumulating scatter of ones into zeros, so a natural number.
The degree factor is `1 / √degree` where the degree is positive and `0` elsewhere: a real number in both cases. Hence the
factor gathered at an edge's source, and the one gathered at its destination, are real numbers, whatever the edge words.
-/

noncomputable section

open Idealize.ShloMosaic Idealize.ShloMosaic.ValueIdx Idealize.ShloMosaic.HopRead Idealize.ShloMosaic.HopProject

namespace Cert.ReferenceIdeal.Degree

open Cert.ReferenceIdeal Cert.ReferenceIdeal.Gen Cert.ReferenceIdeal.Read

variable (a1 : (⟨S2x800000, .i32⟩ : BufTy).Contents (Elt Ideal))

/-- The degree of a node is a real number (a count of edges). -/
theorem degree_real (i : S50000.Idx) : ∃ r : ℝ, val_main_v10 (F := Ideal) a1 i = (r : EReal) := by
  unfold val_main_v10
  refine scatterAdd_real _ _ _ _ (fun j => ⟨0, ?_⟩) (fun j => ⟨1, ?_⟩) i
  · unfold val_main_v8 val_main_cst_0
    rw [bcast_scalar _ _ j (fun a => a.elim0)]
    exact Ideal.ofBits_zero_f32.trans EReal.coe_zero.symm
  · unfold val_main_v7 val_main_cst
    rw [bcast_scalar _ _ j (fun a => a.elim0)]
    exact Ideal.ofBits_one_f32.trans EReal.coe_one.symm

/-- The degree factor of a node, `1 / √degree` at a positive degree and `0` elsewhere, is a real number. -/
theorem factor_real (i : S50000.Idx) : ∃ r : ℝ, val_main_v17 (F := Ideal) a1 i = (r : EReal) := by
  obtain ⟨d, hd⟩ := degree_real a1 i
  have h11 : val_main_v11 (F := Ideal) i = 0 := by
    unfold val_main_v11 val_main_cst_1
    rw [bcast_scalar _ _ i (fun a => a.elim0)]; exact Ideal.ofBits_zero_f32
  have h13 : val_main_v13 (F := Ideal) i = 0 := by
    unfold val_main_v13 val_main_cst_2
    rw [bcast_scalar _ _ i (fun a => a.elim0)]; exact Ideal.ofBits_zero_f32
  have hone : val_main_call0_v1 (F := Ideal) i = 1 := by
    unfold val_main_call0_v1 val_main_call0_v0 val_main_cst_3
    rw [bcast_scalar _ _ i (fun a => a.elim0)]; exact Ideal.ofBits_one_f32
  have hzero : val_main_call1_v1 (F := Ideal) i = 0 := by
    unfold val_main_call1_v1 val_main_call1_v0 val_main_cst_4
    rw [bcast_scalar _ _ i (fun a => a.elim0)]; exact Ideal.ofBits_zero_f32
  rw [val_main_v17_apply, val_main_v16_apply, val_main_v15_apply, val_main_v12_apply, val_main_v14_apply,
    h11, h13, hone, hzero, hd]
  simp only [Ideal.cmpf_def, Ideal.hostUnary_rsqrt_def]
  unfold Scalar.select
  by_cases hpos : (0 : EReal) < (d : EReal)
  · have hc : Ideal.cmp .ogt (d : EReal) 0 = 1 := by unfold Ideal.cmp; simp [hpos]
    have hd0 : (0 : ℝ) < d := by exact_mod_cast hpos
    rw [if_pos hc, if_pos hc, Ideal.rsqrt_coe, if_neg (not_lt.mpr hd0.le), if_neg hd0.ne']
    exact ⟨_, rfl⟩
  · have hc : ¬ Ideal.cmp .ogt (d : EReal) 0 = 1 := by unfold Ideal.cmp; simp [hpos]
    rw [if_neg hc]
    exact ⟨0, EReal.coe_zero.symm⟩

/-- The factor gathered at an edge's source is one of the nodes' factors: real. -/
theorem src_factor_real (j : S850000.Idx) : ∃ r : ℝ, val_main_v24 (F := Ideal) a1 j = (r : EReal) := by
  unfold val_main_v24 Host.gather
  exact factor_real a1 _

/-- So is the factor gathered at its destination. -/
theorem dst_factor_real (j : S850000.Idx) : ∃ r : ℝ, val_main_v32 (F := Ideal) a1 j = (r : EReal) := by
  unfold val_main_v32 Host.gather
  exact factor_real a1 _

end Cert.ReferenceIdeal.Degree

end
-- ==== Proof.KernelValue.lean ====
import proofs.«159129_j91250875171026_1_alg».proof.Proof.KernelProj
import proofs.«159129_j91250875171026_1_alg».proof.Proof.KernelTail
import proofs.«159129_j91250875171026_1_alg».proof.Proof.Shared
import proofs.«159129_j91250875171026_1_alg».proof.Proof.RefValue
import proofs.«159129_j91250875171026_1_alg».proof.Proof.RefDegree
import proofs.«159129_j91250875171026_1_alg».proof.Proof.LibHopProject

/-!
# The kernel's result is the reference's

The kernel projects every node's features to one number and then runs the two hops on that column; the reference runs the
two hops on all 128 features and projects afterwards. Both use the same edges and the same edge weights, and a hop is
linear in the node values, so the two agree as soon as edge weights, features and coefficients are real numbers: the edge
weights always are (products of degree factors), the features and coefficients are by the precondition.
-/

noncomputable section

open Idealize.ShloMosaic Idealize.ShloMosaic.TcCoe Idealize.SL.Sem
open Idealize.ShloMosaic.ValueIdx Idealize.ShloMosaic.HopRead Idealize.ShloMosaic.HopProject

namespace Cert.KernelIdeal.Whole

open Cert.KernelIdeal Cert.KernelIdeal.Gen

variable (m : (ℓ : Loc nD τ sig) → Buf (Elt Ideal) ℓ) (ρ : Dev nD → PrngReg)

/-- Every edge weight is a real number: the product of two degree factors. -/
theorem weight_real (a1 : (⟨Cert.ReferenceIdeal.S2x800000, .i32⟩ : BufTy).Contents (Elt Ideal)) (e : Fin 850000) :
    ∃ r : ℝ, Cert.ReferenceIdeal.HopValue.weight a1 e = (r : EReal) := by
  obtain ⟨p, hp⟩ := Cert.ReferenceIdeal.Degree.src_factor_real a1 (ix1 e)
  obtain ⟨q, hq⟩ := Cert.ReferenceIdeal.Degree.dst_factor_real a1 (ix1 e)
  exact ⟨p * q, by rw [Cert.ReferenceIdeal.HopValue.weight_eq, hp, hq, EReal.coe_mul]⟩

/-- The projected column at node `j`, spelt with the coefficients themselves: the transposed column's entry `(k, 0)` is
    coefficient `k`. -/
theorem proj_apply (x0 : (⟨Cert.ReferenceIdeal.S50000x128, .f32⟩ : BufTy).Contents (Elt Ideal))
    (x2 : (⟨Cert.ReferenceIdeal.S1x128, .f32⟩ : BufTy).Contents (Elt Ideal)) (j : Fin 50000) :
    Proj.proj x0 (Cert.ReferenceIdeal.Read.val_main_v60 (F := Ideal) x2) (ix2 j (0 : Fin 1))
      = ∑ k : Fin 128, x0 (ix2 j k) * x2 (ix2 (0 : Fin 1) k) := by
  unfold Proj.proj
  refine Finset.sum_congr rfl fun k _ => ?_
  refine congrArg₂ (· * ·) rfl ?_
  rw [Cert.ReferenceIdeal.Read.val_main_v60_apply]
  exact congrArg x2 (Cert.ReferenceIdeal.HopValue.idx2_eq _ (0 : Fin 1) k rfl rfl)

/-- THE AGREEMENT over plain arrays: two column hops of the projected features plus the bias is the reference's result,
    when features and coefficients are real. -/
theorem agree (x0 : (⟨Cert.ReferenceIdeal.S50000x128, .f32⟩ : BufTy).Contents (Elt Ideal))
    (a1 : (⟨Cert.ReferenceIdeal.S2x800000, .i32⟩ : BufTy).Contents (Elt Ideal))
    (x2 : (⟨Cert.ReferenceIdeal.S1x128, .f32⟩ : BufTy).Contents (Elt Ideal))
    (x3 : (⟨Cert.ReferenceIdeal.S1, .f32⟩ : BufTy).Contents (Elt Ideal))
    (hx : ∀ i, ∃ r : ℝ, x0 i = (r : EReal)) (hw : ∀ i, ∃ r : ℝ, x2 i = (r : EReal)) :
    Tail.result (Cert.ReferenceIdeal.Read.val_main_v3 (F := Ideal) a1) (Cert.ReferenceIdeal.Read.val_main_v6 (F := Ideal) a1)
        (mulf (F := Ideal) (φ := .f32) (Cert.ReferenceIdeal.Read.val_main_v24 (F := Ideal) a1)
          (Cert.ReferenceIdeal.Read.val_main_v32 (F := Ideal) a1))
        x3 (Proj.proj x0 (Cert.ReferenceIdeal.Read.val_main_v60 (F := Ideal) x2))
      = Cert.ReferenceIdeal.Read.val_main_v65 (F := Ideal) x0 a1 x2 x3 := by
  funext i
  obtain ⟨i, rfl⟩ : ∃ i' : Fin 50000, i = ix1 i' := ⟨i 0, eq_ix1 i⟩
  rw [Tail.result_apply, Cert.ReferenceIdeal.HopValue.result_apply]
  refine congrArg₂ (· + ·) ?_ rfl
  -- the kernel's edge weight is the reference's
  have hn : (fun e : Fin 850000 => mulf (F := Ideal) (φ := .f32) (Cert.ReferenceIdeal.Read.val_main_v24 (F := Ideal) a1)
      (Cert.ReferenceIdeal.Read.val_main_v32 (F := Ideal) a1) (ix1 e)) = Cert.ReferenceIdeal.HopValue.weight a1 := by
    funext e
    rw [mulf_apply, Cert.ReferenceIdeal.HopValue.weight_eq]
  rw [hn]
  -- the projected column, spelt with the coefficients
  have hp : (fun j' : Fin 50000 => Proj.proj x0 (Cert.ReferenceIdeal.Read.val_main_v60 (F := Ideal) x2) (ix2 j' (0 : Fin 1)))
      = fun j' => ∑ k : Fin 128, x0 (ix2 j' k) * x2 (ix2 (0 : Fin 1) k) :=
    funext fun j' => proj_apply x0 x2 j'
  rw [hp]
  -- a projection then two hops is two hops then a projection
  have key := project_hop_hop
    (landsOn (N := 50000) (Cert.ReferenceIdeal.Read.val_main_v6 (F := Ideal) a1))
    (rowOf 50000 (by decide) 50000#32 (Cert.ReferenceIdeal.Read.val_main_v3 (F := Ideal) a1))
    (Cert.ReferenceIdeal.HopValue.weight a1)
    (fun (j : Fin 50000) (k : Fin 128) => x0 (ix2 j k)) (fun k : Fin 128 => x2 (ix2 (0 : Fin 1) k))
    (weight_real a1) (fun j k => hx (ix2 j k)) (fun k => hw (ix2 (0 : Fin 1) k)) i
  exact key.symm

/-- THE KERNEL'S RESULT BUFFER, as the frame run names it, is the reference's result of the same inputs. -/
theorem value_eq (c : Dev nD)
    (hx : ∀ i, ∃ r : ℝ, (m ((c : Thread nD τ).loc main_arg0) : S50000x128.Idx → EReal) i = (r : EReal))
    (hw : ∀ i, ∃ r : ℝ, (m ((c : Thread nD τ).loc main_arg2) : S1x128.Idx → EReal) i = (r : EReal)) :
    Pipeline.afterTail₀ cfgs (dats m) 0 (V0 m) [hostOps1] c main_v62
      = Cert.ReferenceIdeal.Read.val_main_v65 (F := Ideal) (m ((c : Thread nD τ).loc main_arg0))
          (m ((c : Thread nD τ).loc main_arg1)) (m ((c : Thread nD τ).loc main_arg2)) (m ((c : Thread nD τ).loc main_arg3)) := by
  rw [Tail.tail_value m c, Proj.final m c, Shared.src_eq m c, Shared.dst_eq m c, Shared.weight_eq m c, Shared.coef_eq m c,
    V_main_arg0 m c, V_main_arg3 m c]
  exact agree _ _ _ _ hx hw

end Cert.KernelIdeal.Whole

end
-- ==== Proof.InputsReal.lean ====
import proofs.«159129_j91250875171026_1_alg».proof.Pre_finite_inputs
import proofs.«159129_j91250875171026_1_alg».proof.Proof.Gen.Pre_finite_inputs
import Idealize.ShloMosaic.Lib.ReduceAll
import Idealize.ShloMosaic.Lib.ValueIdx
import Idealize.ShloMosaic.PureOps.Ideal

/-!
# Under the precondition every float input is a real number

The precondition says of each float input that the absolute value of every entry is below `+∞`. Over the extended reals
the absolute value of `x` is `max x (-x)`, so such an entry is neither `+∞` nor `-∞`: it is a real number.
-/

noncomputable section

open Idealize.ShloMosaic

namespace Cert.Pre_finite_inputs.Reals

open Cert.Pre_finite_inputs

/-- An extended real whose absolute value compares below `+∞` is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    have h0 : Ideal.cmp .olt (max x (-x)) ⊤ = 0#1 := by simp [Ideal.cmp, hn]
    rw [h0] at h
    exact absurd h (by decide)
  rw [max_lt_iff] at hlt
  have h1 : x ≠ ⊤ := ne_of_lt hlt.1
  have h2 : x ≠ ⊥ := by
    intro hb
    rw [hb] at hlt
    simp at hlt
  exact ⟨x.toReal, (EReal.coe_toReal h1 h2).symm⟩

/-- THE PRECONDITION READ: every entry of the node features, of the coefficients and of the bias is a real number. -/
theorem inputs_real (x0 : FVec Ideal S50000x128 .f32) (a1 : IVec S2x800000 32) (x2 : FVec Ideal S1x128 .f32)
    (x3 : FVec Ideal S1 .f32) (h : fn (F := Ideal) x0 a1 x2 x3 = fun _ => 1#1) :
    (∀ i, ∃ r : ℝ, x0 i = (r : EReal)) ∧ (∀ i, ∃ r : ℝ, x2 i = (r : EReal)) ∧ (∀ i, ∃ r : ℝ, x3 i = (r : EReal)) := by
  haveI : Subsingleton S_.Idx := ⟨fun a b => funext fun d => d.elim0⟩
  have h0 := congrFun h ValueIdx.ix0
  dsimp only [fn] at h0
  change IntOp.andi (IntOp.andi _ _) _ = 1#1 at h0
  rw [IntOp.andi_eq_one, IntOp.andi_eq_one] at h0
  obtain ⟨⟨hx, hw⟩, hb⟩ := h0
  refine ⟨fun i => real_of_abs_lt_inf _ ?_, fun i => real_of_abs_lt_inf _ ?_, fun i => real_of_abs_lt_inf _ ?_⟩
  · exact Host.reduce_andi_all _ _ _ _ _ hx i
  · exact Host.reduce_andi_all _ _ _ _ _ hw i
  · exact Host.reduce_andi_all _ _ _ _ _ hb i

end Cert.Pre_finite_inputs.Reals

end
-- ==== Proof.lean ====
/-
  A two-hop graph propagation followed by a linear read-out, against the same read-out done first.

  With `A` the edge-weighted aggregation over the edge list (edge `e` carries weight `d(src e) · d(dst e)`, `d` the degree
  factor `1/√degree`, `0` at degree zero) the reference computes `(A (A x)) wᵀ + b` over all 128 features, while the kernel
  first projects, `y = x wᵀ` (its one matrix-unit region, 25 blocks of 2000 nodes), and then computes `A (A y) + b` on one
  number per node. `A` acts on the node axis and `wᵀ` on the feature axis, so the two agree by exchanging finite sums —
  over the extended reals as soon as every weight, feature and coefficient is a real number. The weights are real whatever
  the edge words (a degree is a count); features and coefficients are real by the precondition. Both programs wrap, clamp
  and drop out-of-range edge words in the same way, so no condition on the integer input is needed.

  The modules: `KernelProj` (the region's array is the projection), `KernelTail` (the lines after the region are two
  column hops plus the bias), `Shared` (the arrays both programs build alike), `RefValue` (the reference at a node),
  `RefDegree` (degree factors are real), `InputsReal` (the precondition read), `KernelValue` (the two results agree).
-/
import proofs.«159129_j91250875171026_1_alg».proof.Defs
import proofs.«159129_j91250875171026_1_alg».proof.Proof.Gen.Kernel
import proofs.«159129_j91250875171026_1_alg».proof.Proof.Gen.Kernel.Frame
import proofs.«159129_j91250875171026_1_alg».proof.Proof.Gen.KernelIdeal
import proofs.«159129_j91250875171026_1_alg».proof.Proof.Gen.KernelIdeal.Frame
import proofs.«159129_j91250875171026_1_alg».proof.Proof.Gen.ReferenceIdeal
import proofs.«159129_j91250875171026_1_alg».proof.Proof.Gen.Pre_finite_inputs
import proofs.«159129_j91250875171026_1_alg».proof.Proof.RefRun
import proofs.«159129_j91250875171026_1_alg».proof.Proof.RefRead
import proofs.«159129_j91250875171026_1_alg».proof.Proof.KernelValue
import proofs.«159129_j91250875171026_1_alg».proof.Proof.InputsReal
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's function of the inputs in their result: the reference by its run, the kernel
    by its frame run, whose result buffer is that function once features and coefficients are real. -/
theorem algebraic : Cert.algebraic_KernelIdeal_ReferenceIdeal := by
  intro m ρ m' ρ' hpre hagree
  refine ⟨fun c => Cert.ReferenceIdeal.Read.val_main_v65 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Gen.run_main m ρ)
    obtain ⟨hx, hw, -⟩ := Cert.Pre_finite_inputs.Reals.inputs_real _ _ _ _ (hpre c)
    exact ⟨((h c).2 Cert.KernelIdeal.main_v62 (Pipeline.mem_restRefs_of Cert.KernelIdeal.main_v62 (by decide) (by decide))).trans
        (Cert.KernelIdeal.Whole.value_eq m c hx hw),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v65_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
